-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4 : Shape := ⟨2, ![524288, 4]⟩
abbrev S2x4194304 : Shape := ⟨2, ![2, 4194304]⟩
abbrev S524288 : Shape := ⟨1, ![524288]⟩
abbrev S4x128 : Shape := ⟨2, ![4, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S524288x4 : S_.BroadcastsInDim S524288x4 (![] : Fin 0 → Fin S524288x4.rank)
  reducesTo_S524288x4_S_d0_1 : S524288x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S256x2 .f32) (main_arg14 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg13
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x256 .f32) (main_arg10 : FVec F S256 .f32) (main_arg11 : FVec F S256x256 .f32) (main_arg12 : FVec F S256 .f32) (main_arg13 : FVec F S256x2 .f32) (main_arg14 : FVec F S2 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x256 .f32) (main_arg10 : FVec F S256 .f32) (main_arg11 : FVec F S256x256 .f32) (main_arg12 : FVec F S256 .f32) (main_arg13 : FVec F S256x2 .f32) (main_arg14 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S524288x4 .f32) (main_arg1 : IVec S2x4194304 32) (main_arg2 : IVec S524288 32) (main_arg3 : FVec F S4x128 .f32) (main_arg4 : FVec F S128 .f32) (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S256x256 .f32) (main_arg12 : FVec F S256 .f32) (main_arg13 : FVec F S256x2 .f32) (main_arg14 : FVec F S2 .f32) : IVec S_ 1 :=
  let main_v0 : FVec F S524288x4 .f32 := Host.absf main_arg0
  let main_cst : FVec F S_ .f32 := constant S_ .f32 0x7F800000#32
  let main_v1 : FVec F S524288x4 .f32 := broadcastInDim S524288x4 ![] bcast_S_S524288x4 main_cst
  let main_v2 : IVec S524288x4 1 := cmpf .olt main_v0 main_v1
  let main_c : IVec S_ 1 := constantI S_ 1 1#1
  let main_v3 : IVec S_ 1 := (fun x v => Host.reduce IntOp.andi x v reducesTo_S524288x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S524288x4 : Shape := ⟨2, ![524288, 4]⟩
abbrev S2x4194304 : Shape := ⟨2, ![2, 4194304]⟩
abbrev S524288 : Shape := ⟨1, ![524288]⟩
abbrev S4x128 : Shape := ⟨2, ![4, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S4096x2 : Shape := ⟨2, ![4096, 2]⟩
abbrev S1024x4 : Shape := ⟨2, ![1024, 4]⟩
abbrev S1024 : Shape := ⟨1, ![1024]⟩
abbrev S4096x128 : Shape := ⟨2, ![4096, 128]⟩
abbrev S1024x128 : Shape := ⟨2, ![1024, 128]⟩
abbrev S1x128 : Shape := ⟨2, ![1, 128]⟩
abbrev S4096x1024 : Shape := ⟨2, ![4096, 1024]⟩
abbrev S1x1024 : Shape := ⟨2, ![1, 1024]⟩
abbrev S4096x256 : Shape := ⟨2, ![4096, 256]⟩
abbrev S1x256 : Shape := ⟨2, ![1, 256]⟩
abbrev S1x2 : Shape := ⟨2, ![1, 2]⟩

abbrev nBuf : Space → Nat
  | .hbm => 16
  | .vmem => 18
  | .smem => 0
  | _ => 0

abbrev bufTy : (tb : Table) → Fin (tcTables nBuf tb) → BufTy
  | .hbm, ⟨0, _⟩ => ⟨S524288x4, .f32⟩
  | .hbm, ⟨1, _⟩ => ⟨S2x4194304, .i32⟩
  | .hbm, ⟨2, _⟩ => ⟨S524288, .i32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x2, .f32⟩
  | .hbm, ⟨14, _⟩ => ⟨S2, .f32⟩
  | .hbm, ⟨15, _⟩ => ⟨S4096x2, .f32⟩
  | .local _ .vmem, ⟨0, _⟩ => ⟨S1024x4, .f32⟩
  | .local _ .vmem, ⟨1, _⟩ => ⟨S1024x4, .f32⟩
  | .local _ .vmem, ⟨2, _⟩ => ⟨S1024, .i32⟩
  | .local _ .vmem, ⟨3, _⟩ => ⟨S1024, .i32⟩
  | .local _ .vmem, ⟨4, _⟩ => ⟨S4x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x2, .f32⟩
  | .local _ .vmem, ⟨15, _⟩ => ⟨S2, .f32⟩
  | .local _ .vmem, ⟨16, _⟩ => ⟨S4096x2, .f32⟩
  | .local _ .vmem, ⟨17, _⟩ => ⟨S4096x128, .f32⟩
  | _, _ => ⟨S524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v47 : BitVec 1 := Scalar.cmpi .eq arg0 c511_i32
  let v48 : BitVec 32 := Scalar.extui v47
  let c0_i32_21 : BitVec 32 := 0#32
  let v49 : BitVec 1 := Scalar.cmpi .ne v48 c0_i32_21
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

class Facts₀ : Prop where
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x4_S1024x4_0_0 : ∀ a, (![0, 0] : Fin 2 → Nat) a + S1024x4.size a ≤ S1024x4.size a
  h_S1024x4 : 0 < S1024x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024_S1024_0 : ∀ a, (![0] : Fin 1 → Nat) a + S1024.size a ≤ S1024.size a
  h_S1024 : 0 < S1024.numel
  iota_S4096x1024_d0_w32 : S4096x1024.Iotas .tc 32 [0]
  shapeCasts_S1024_S1x1024 : S1024.ShapeCasts S1x1024
  broadcasts_S1x1024_S4096x1024 : S1x1024.Broadcasts S4096x1024
  natLt_1_32 : 1 < 32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S1024x4_S4x128_S1024x128_1_0_0_1_n_n_wf : DotDims.WF S1024x4 S4x128 S1024x128 [1] [0] [0] [1] [] []
  dot_S1024x128_S128x128_S1024x128_1_0_0_1_n_n_wf : DotDims.WF S1024x128 S128x128 S1024x128 [1] [0] [0] [1] [] []
  dot_S4096x1024_S1024x128_S4096x128_1_0_0_1_n_n_wf : DotDims.WF S4096x1024 S1024x128 S4096x128 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x2_S4096x2_1_0_0_1_n_n_wf : DotDims.WF S4096x256 S256x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S524288x4.size a
  hwx0_0 : ∀ i : grid0.Coords, EltTy.bits .f32 = 32 ∨ (Rect.block (s := S524288x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S524288.size a
  hwx0_1 : ∀ i : grid0.Coords, EltTy.bits .i32 = 32 ∨ (Rect.block (s := S524288) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .f32 = 32 ∨ (Rect.block (s := S128x256) S128x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x2.size a ≤ S256x2.size a
  hwx0_12 : ∀ i : grid0.Coords, EltTy.bits .f32 = 32 ∨ (Rect.block (s := S256x2) S256x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2.size a ≤ S2.size a
  hwx0_13 : ∀ i : grid0.Coords, EltTy.bits .f32 = 32 ∨ (Rect.block (s := S2) S2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4096x2.size a ≤ S4096x2.size a
  hwx0_14 : ∀ i : grid0.Coords, EltTy.bits .f32 = 32 ∨ (Rect.block (s := S4096x2) S4096x2.size (cc0_transform_14 i) (hinb0_14 i)).WholeWords (EltTy.packing .f32)

variable [Facts₀]

def dot_S1024x4_S4x128_S1024x128_1_0_0_1_n_n : DotDims S1024x4 S4x128 S1024x128 where
  lhsContracting := [1]
  rhsContracting := [0]
  lhsNonContracting := [0]
  rhsNonContracting := [1]
  lhsBatch := []
  rhsBatch := []
  wf := dot_S1024x4_S4x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

abbrev win0_0 : Pipeline.Window sig grid0 :=
  Pipeline.Window.ofSpec (Memref.whole main_arg0) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S256x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S4096x2.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S524288x4 : Shape := ⟨2, ![524288, 4]⟩
abbrev S2x4194304 : Shape := ⟨2, ![2, 4194304]⟩
abbrev S524288 : Shape := ⟨1, ![524288]⟩
abbrev S4x128 : Shape := ⟨2, ![4, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S524288x128 : Shape := ⟨2, ![524288, 128]⟩
abbrev S1x128 : Shape := ⟨2, ![1, 128]⟩
abbrev S_ : Shape := ⟨0, ![]⟩
abbrev S4096x128 : Shape := ⟨2, ![4096, 128]⟩
abbrev S524288x1 : Shape := ⟨2, ![524288, 1]⟩
abbrev S4096x256 : Shape := ⟨2, ![4096, 256]⟩
abbrev S1x256 : Shape := ⟨2, ![1, 256]⟩
abbrev S4096x2 : Shape := ⟨2, ![4096, 2]⟩
abbrev S1x2 : Shape := ⟨2, ![1, 2]⟩

abbrev nBuf : Space → Nat
  | .hbm => 55
  | .vmem => 0
  | .smem => 0
  | _ => 0

abbrev bufTy : (tb : Table) → Fin (tcTables nBuf tb) → BufTy
  | .hbm, ⟨0, _⟩ => ⟨S524288x4, .f32⟩
  | .hbm, ⟨1, _⟩ => ⟨S2x4194304, .i32⟩
  | .hbm, ⟨2, _⟩ => ⟨S524288, .i32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x2, .f32⟩
  | .hbm, ⟨14, _⟩ => ⟨S2, .f32⟩
  | .hbm, ⟨15, _⟩ => ⟨S524288x128, .f32⟩
  | .hbm, ⟨16, _⟩ => ⟨S1x128, .f32⟩
  | .hbm, ⟨17, _⟩ => ⟨S524288x128, .f32⟩
  | .hbm, ⟨18, _⟩ => ⟨S524288x128, .f32⟩
  | .hbm, ⟨19, _⟩ => ⟨S_, .f32⟩
  | .hbm, ⟨20, _⟩ => ⟨S524288x128, .f32⟩
  | .hbm, ⟨21, _⟩ => ⟨S524288x128, .f32⟩
  | .hbm, ⟨22, _⟩ => ⟨S524288x128, .f32⟩
  | .hbm, ⟨23, _⟩ => ⟨S1x128, .f32⟩
  | .hbm, ⟨24, _⟩ => ⟨S524288x128, .f32⟩
  | .hbm, ⟨25, _⟩ => ⟨S524288x128, .f32⟩
  | .hbm, ⟨26, _⟩ => ⟨S_, .f32⟩
  | .hbm, ⟨27, _⟩ => ⟨S524288x128, .f32⟩
  | .hbm, ⟨28, _⟩ => ⟨S524288x128, .f32⟩
  | .hbm, ⟨29, _⟩ => ⟨S524288x128, .f32⟩
  | .hbm, ⟨30, _⟩ => ⟨S1x128, .f32⟩
  | .hbm, ⟨31, _⟩ => ⟨S524288x128, .f32⟩
  | .hbm, ⟨32, _⟩ => ⟨S524288x128, .f32⟩
  | .hbm, ⟨33, _⟩ => ⟨S_, .f32⟩
  | .hbm, ⟨34, _⟩ => ⟨S4096x128, .f32⟩
  | .hbm, ⟨35, _⟩ => ⟨S524288x1, .i32⟩
  | .hbm, ⟨36, _⟩ => ⟨S4096x128, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S1x256, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096x256, .f32⟩
  | .hbm, ⟨50, _⟩ => ⟨S4096x256, .f32⟩
  | .hbm, ⟨51, _⟩ => ⟨S4096x2, .f32⟩
  | .hbm, ⟨52, _⟩ => ⟨S1x2, .f32⟩
  | .hbm, ⟨53, _⟩ => ⟨S4096x2, .f32⟩
  | .hbm, ⟨54, _⟩ => ⟨S4096x2, .f32⟩
  | _, _ => ⟨S524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call3_cst : Ref sig .tc := ⟨.hbm, 48, rfl⟩
abbrev main_call3_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S_S4096x128 : S_.BroadcastsInDim S4096x128 (![] : Fin 0 → Fin S4096x128.rank)
  bcast_S524288_S524288x1_0 : S524288.BroadcastsInDim S524288x1 (![0] : Fin 1 → Fin S524288x1.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S524288x4_S4x128_S524288x128_1_0_0_1_n_n_wf : DotDims.WF S524288x4 S4x128 S524288x128 [1] [0] [0] [1] [] []
  dot_S524288x128_S128x128_S524288x128_1_0_0_1_n_n_wf : DotDims.WF S524288x128 S128x128 S524288x128 [1] [0] [0] [1] [] []
  scatter_S4096x128_S524288x1_S524288x128_1_0_0_1_wf : ScatterDims.WF S4096x128 S524288x1 S524288x128 [1] [0] [0] 1
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x2_S4096x2_1_0_0_1_n_n_wf : DotDims.WF S4096x256 S256x2 S4096x2 [1] [0] [0] [1] [] []

variable [Facts₀]

def dot_S524288x4_S4x128_S524288x128_1_0_0_1_n_n : DotDims S524288x4 S4x128 S524288x128 where
  lhsContracting := [1]
  rhsContracting := [0]
  lhsNonContracting := [0]
  rhsNonContracting := [1]
  lhsBatch := []
  rhsBatch := []
  wf := dot_S524288x4_S4x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S4096x128_S524288x1_S524288x128_1_0_0_1 : ScatterDims S4096x128 S524288x1 S524288x128 where
  updateWindowDims := [1]
  insertedWindowDims := [0]
  scatterDimsToOperandDims := [0]
  indexVectorDim := 1
  wf := scatter_S4096x128_S524288x1_S524288x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

class Facts : Prop extends Facts₀ where

variable [Facts]
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«409733_j88502096101647_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.LibRowLayers.lean ====
/-
  Dense layers row by row: the spellings of this network beyond the positive-part layers.

  The last layer of each of the two networks adds its bias row and takes no positive part (`biasArr`). A kernel body
  narrows both operands of a matrix product to a shorter float format first: on the extended reals narrowing is the
  identity, so the product is still every row of the left operand against the right operand's columns. A kernel body
  broadcasts a bias row it has already made of the bias vector; the host broadcasts the bias vector to a row and the
  row down the rows. Both read the bias vector's entry `k` in column `k`.
-/
import Idealize.ShloMosaic.PureOps.Ideal
import Idealize.ShloMosaic.PureOps.Ideal.Laws
import Idealize.ShloMosaic.Lib.ValueIdx
import Idealize.ShloMosaic.Lib.Pipeline.Value
import proofs.«409733_j88502096101647_1_alg».proof.Proof.LibRowOps

noncomputable section

namespace Cert.Rows

open Idealize.ShloMosaic Idealize.ShloMosaic.ValueIdx Cert.Lib

/-- Every row of an `[M, K]` array plus the bias row. -/
def biasArr {M K : ℕ} (A : (⟨2, ![M, K]⟩ : Shape).Idx → EReal) (B : (⟨2, ![1, K]⟩ : Shape).Idx → EReal) :
    (⟨2, ![M, K]⟩ : Shape).Idx → EReal :=
  fun i => A i + B (ix2 (0 : Fin 1) (i 1))

theorem biasArr_apply {M K : ℕ} (A : (⟨2, ![M, K]⟩ : Shape).Idx → EReal) (B : (⟨2, ![1, K]⟩ : Shape).Idx → EReal)
    (r : Fin M) (k : Fin K) : biasArr A B (ix2 r k) = A (ix2 r k) + B (ix2 (0 : Fin 1) k) := rfl

/-- A product of two operands narrowed to a shorter float format, into the zero accumulator. -/
theorem matmul_narrowed_eq {M K N : ℕ} {ψ₁ ψ₂ : FTy} (prec : Option ContractPrecision)
    (l : FVec Ideal ⟨2, ![M, K]⟩ .f32) (w : FVec Ideal ⟨2, ![K, N]⟩ .f32)
    (h1 : ψ₁.bits < FTy.f32.bits) (h2 : ψ₂.bits < FTy.f32.bits) :
    FloatOps.matmul (DotDims.plain M K N) prec (truncf ψ₁ l h1) (truncf ψ₂ w h2)
        (constant ⟨2, ![M, N]⟩ .f32 0x00000000#32) = projArr l w := by
  funext i
  obtain ⟨r, j, rfl⟩ : ∃ (r : Fin M) (j : Fin N), i = ix2 r j := ⟨i 0, i 1, eq_ix2 i⟩
  rw [matmul_plain_zero_apply]
  rfl

/-- A bias row broadcast down the rows of a block and added, then the positive part against the splat `z`. -/
theorem rowRelu_eq {M N : ℕ} (y : FVec Ideal ⟨2, ![M, N]⟩ .f32) (B : FVec Ideal ⟨2, ![1, N]⟩ .f32)
    (h3 : (⟨2, ![1, N]⟩ : Shape).Broadcasts ⟨2, ![M, N]⟩) (z : Ideal .f32) :
    maximumf (addf y (broadcastTo ⟨2, ![M, N]⟩ B h3)) (broadcast ⟨2, ![M, N]⟩ z) = reluArr y B z := by
  funext i
  obtain ⟨r, j, rfl⟩ : ∃ (r : Fin M) (j : Fin N), i = ix2 r j := ⟨i 0, i 1, eq_ix2 i⟩
  rw [maximumf_apply, addf_apply, broadcast_apply, broadcastTo_row_apply]
  rfl

/-- A bias row broadcast down the rows of a block and added. -/
theorem rowBias_eq {M N : ℕ} (y : FVec Ideal ⟨2, ![M, N]⟩ .f32) (B : FVec Ideal ⟨2, ![1, N]⟩ .f32)
    (h3 : (⟨2, ![1, N]⟩ : Shape).Broadcasts ⟨2, ![M, N]⟩) :
    addf y (broadcastTo ⟨2, ![M, N]⟩ B h3) = biasArr y B := by
  funext i
  obtain ⟨r, j, rfl⟩ : ∃ (r : Fin M) (j : Fin N), i = ix2 r j := ⟨i 0, i 1, eq_ix2 i⟩
  rw [addf_apply, broadcastTo_row_apply]
  rfl

/-- A vector viewed as a one-row array reads the vector's entry `k` in column `k`. -/
theorem rowOfVec_apply {α : Type} {K : ℕ} (b : (⟨1, ![K]⟩ : Shape).Idx → α) (h4 : (⟨1, ![K]⟩ : Shape).ShapeCasts ⟨2, ![1, K]⟩)
    (k : Fin K) : shapeCast ⟨2, ![1, K]⟩ b h4 (ix2 (0 : Fin 1) k) = b (ix1 k) :=
  shapeCast_apply b h4 _ _ (by
    rw [Shape.rowMajor_val_two, Shape.rowMajor_val_one]
    show k.val = 0 * K + k.val
    omega)

/-- The host's bias: a length-`K` bias broadcast to a row, then down the rows, and added. -/
theorem host_bias_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h4 : (⟨1, ![K]⟩ : Shape).ShapeCasts ⟨2, ![1, K]⟩) :
    addf A (broadcastInDim ⟨2, ![M, K]⟩ ![0, 1] h1 (broadcastInDim ⟨2, ![1, K]⟩ ![1] h2 b))
      = biasArr A (shapeCast ⟨2, ![1, K]⟩ b h4) := by
  funext i
  obtain ⟨r, k, rfl⟩ : ∃ (r : Fin M) (k : Fin K), i = ix2 r k := ⟨i 0, i 1, eq_ix2 i⟩
  rw [addf_apply, biasArr_apply, rowOfVec_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  rw [e1]

end Cert.Rows

end
-- ==== Proof.PooledNet.lean ====
/-
  The network both programs compute, as one function of the argument arrays.

  Every node row passes through the node network (two layers with a positive part, then an affine layer); the node
  features are pooled by graph: graph `g`'s row is the sum of the feature rows of the nodes whose graph id, read as a
  signed word, is `g`, a node whose id names no graph contributing nowhere; every pooled row passes through the head
  (two layers with a positive part, then an affine layer). A graph id `b` names graph `g` exactly when `b` is the word
  of `g`: the graphs are numbered below `2 ^ 31`, where a word's signed reading is its unsigned one.
-/
import Idealize.ShloMosaic.PureOps.Ideal
import Idealize.ShloMosaic.Lib.ValueIdx
import proofs.«409733_j88502096101647_1_alg».proof.Proof.LibRowOps
import proofs.«409733_j88502096101647_1_alg».proof.Proof.LibRowLayers

noncomputable section

namespace Cert.Net

open Idealize.ShloMosaic Idealize.ShloMosaic.ValueIdx Cert.Lib Cert.Rows

/-- An `[M, K]` array of extended reals. -/
abbrev Arr (M K : ℕ) := (⟨2, ![M, K]⟩ : Shape).Idx → EReal

/-- Three dense layers on every row: positive part, positive part, affine. -/
def mlp {M A H1 H2 O : ℕ} (X : Arr M A) (W0 : Arr A H1) (B0 : Arr 1 H1) (W1 : Arr H1 H2) (B1 : Arr 1 H2)
    (W2 : Arr H2 O) (B2 : Arr 1 O) : Arr M O :=
  biasArr (projArr (reluArr (projArr (reluArr (projArr X W0) B0 0) W1) B1 0) W2) B2

/-- Row `(r, ·)` of the three layers depends on row `r` of the input only. -/
theorem mlp_rows {M M' A H1 H2 O : ℕ} (X : Arr M A) (X' : Arr M' A) (W0 : Arr A H1) (B0 : Arr 1 H1) (W1 : Arr H1 H2)
    (B1 : Arr 1 H2) (W2 : Arr H2 O) (B2 : Arr 1 O) (r : Fin M) (r' : Fin M')
    (h : ∀ k, X (ix2 r k) = X' (ix2 r' k)) (c : Fin O) :
    mlp X W0 B0 W1 B1 W2 B2 (ix2 r c) = mlp X' W0 B0 W1 B1 W2 B2 (ix2 r' c) := by
  simp only [mlp, biasArr_apply, projArr_apply, reluArr_apply, projRow, reluRow, h]

/-- The word of graph `g`, read signed, is `g`. -/
theorem toInt_ofNat_graph {g : ℕ} (hg : g < 2147483648) : (BitVec.ofNat 32 g).toInt = (g : Int) := by
  rw [BitVec.toInt_eq_toNat_cond, BitVec.toNat_ofNat]
  have e : g % 2 ^ 32 = g := Nat.mod_eq_of_lt (by omega)
  rw [e]
  split <;> omega

/-- A graph id names graph `g` exactly when it is the word of `g`. -/
theorem names_graph_iff {g : ℕ} (hg : g < 2147483648) (b : BitVec 32) : BitVec.ofNat 32 g = b ↔ b.toInt = (g : Int) := by
  constructor
  · rintro rfl
    exact toInt_ofNat_graph hg
  · intro h
    exact BitVec.eq_of_toInt_eq ((toInt_ofNat_graph hg).trans h.symm)

/-- Pooling by graph: row `g` is the sum of the rows `n` whose id names `g`. -/
def pool {N : ℕ} (R : ℕ) {C : ℕ} (ids : Fin N → BitVec 32) (H : Arr N C) : Arr R C :=
  fun i => ∑ n : Fin N, if (ids n).toInt = ((i 0).val : Int) then H (ix2 n (i 1)) else 0

theorem pool_apply {N R C : ℕ} (ids : Fin N → BitVec 32) (H : Arr N C) (g : Fin R) (c : Fin C) :
    pool R ids H (ix2 g c) = ∑ n : Fin N, if (ids n).toInt = (g.val : Int) then H (ix2 n c) else 0 := rfl

/-- THE NETWORK: node network, pooling into `R` graphs, head. -/
def net {N : ℕ} (R : ℕ) (X : Arr N 4) (ids : Fin N → BitVec 32)
    (W0 : Arr 4 128) (B0 : Arr 1 128) (W1 : Arr 128 128) (B1 : Arr 1 128) (W2 : Arr 128 128) (B2 : Arr 1 128)
    (V0 : Arr 128 256) (C0 : Arr 1 256) (V1 : Arr 256 256) (C1 : Arr 1 256) (V2 : Arr 256 2) (C2 : Arr 1 2) : Arr R 2 :=
  mlp (pool R ids (mlp X W0 B0 W1 B1 W2 B2)) V0 C0 V1 C1 V2 C2

end Cert.Net

end
-- ==== Proof.LibTileSums.lean ====
/-
  Sums over the rows of an array, taken one tile of rows at a time.

  An array of `N` rows is read `B` rows at a time. The sum of a quantity over all the rows is reached by adding, tile
  after tile, the sum over that tile's rows to the sum over the tiles before it. Rows are addressed by natural numbers:
  a function of the first `N` naturals is continued by zero, so that the partial sums are sums over initial segments
  of the naturals and a tile's rows are an offset segment. On the extended reals a row's term selected by an indicator
  `1` or `0` is the term or zero, whatever the term: `0 * x = 0` also at the infinities.
-/
import Idealize.ShloMosaic.PureOps.Ideal

noncomputable section

namespace Cert.Tiles

open Finset

variable {M : Type*} [AddCommMonoid M]

/-- A function of the first `N` naturals, continued by zero. -/
def extendZero {N : ℕ} (f : Fin N → M) (n : ℕ) : M := if h : n < N then f ⟨n, h⟩ else 0

theorem extendZero_of_lt {N : ℕ} (f : Fin N → M) {n : ℕ} (h : n < N) : extendZero f n = f ⟨n, h⟩ := dif_pos h

/-- The sum of the continued function over the first `N` naturals is the sum of the function. -/
theorem sum_range_extendZero {N : ℕ} (f : Fin N → M) : ∑ n ∈ range N, extendZero f n = ∑ k : Fin N, f k := by
  rw [Finset.sum_range]
  exact Finset.sum_congr rfl fun k _ => extendZero_of_lt f k.isLt

/-- Tile `s` lies inside the array: its rows `s * B + r`, `r < B`, are rows of the array. -/
theorem tile_row_lt {N B s : ℕ} (h : s * B + B ≤ N) (r : Fin B) : s * B + r.val < N := by
  have := r.isLt
  omega

/-- One tile's sum: over the offsets `r < B` from `s * B`, the continued function sums the tile's `B` rows. -/
theorem sum_tile {N : ℕ} (f : Fin N → M) (B s : ℕ) (h : s * B + B ≤ N) :
    ∑ r ∈ range B, extendZero f (s * B + r) = ∑ r : Fin B, f ⟨s * B + r.val, tile_row_lt h r⟩ := by
  rw [Finset.sum_range]
  exact Finset.sum_congr rfl fun r _ => extendZero_of_lt f (tile_row_lt h r)

/-- The partial sum over the first `n + 1` tiles is the partial sum over the first `n` plus tile `n`'s sum. -/
theorem sum_tiles_succ (g : ℕ → M) (B n : ℕ) :
    ∑ j ∈ range ((n + 1) * B), g j = ∑ j ∈ range (n * B), g j + ∑ r ∈ range B, g (n * B + r) := by
  rw [Nat.succ_mul, Finset.sum_range_add]

/-- An indicator times a term is the term where the indicator is `1` and zero where it is `0`. -/
theorem indicator_mul (p : Prop) [Decidable p] (x : EReal) : (if p then (1 : EReal) else 0) * x = if p then x else 0 := by
  by_cases h : p
  · rw [if_pos h, if_pos h, one_mul]
  · rw [if_neg h, if_neg h, zero_mul]

end Cert.Tiles

end
-- ==== Proof.BodyValues.lean ====
/-
  The values the kernel's body computes, on the extended reals.

  A tile's node features are the node network on the tile's rows; the head of an accumulator is the head network on
  its rows: in both, a matrix product of narrowed operands is the rows against the columns, and the bias vector, made a
  row, is added down the rows. The graph indicator of a tile has a `1` at `(g, r)` when row `r`'s graph id is the word
  of `g` and a `0` otherwise. One accumulate step adds, at `(g, c)`, the indicator's row `g` against column `c` of the
  tile's node features. The cleared block is zero everywhere.
-/
import proofs.«409733_j88502096101647_1_alg».proof.Proof.Gen.KernelIdeal.Skeleton
import proofs.«409733_j88502096101647_1_alg».proof.Proof.LibRowOps
import proofs.«409733_j88502096101647_1_alg».proof.Proof.LibRowLayers
import proofs.«409733_j88502096101647_1_alg».proof.Proof.PooledNet
import proofs.«409733_j88502096101647_1_alg».proof.Proof.LibTileSums
import Idealize.ShloMosaic.PureOps.Ideal.Laws
import Idealize.ShloMosaic.Lib.ValueIdx
import Idealize.ShloMosaic.Lib.Pipeline.Value

noncomputable section

namespace Cert.KernelIdeal.BodyValue

open Cert.KernelIdeal Cert.KernelIdeal.Gen
open Idealize.ShloMosaic Idealize.ShloMosaic.ValueIdx Cert.Lib Cert.Rows Cert.Net

/-- The zero word is the real zero. -/
theorem zero_word : (Scalar.ofBits .f32 0x00000000#32 : Ideal .f32) = 0 := Ideal.ofBits_zero_f32

/-- A bias vector as the row the body broadcasts. -/
abbrev row128 (b : Vec Ideal S128 .f32) : Arr 1 128 := shapeCast S1x128 b shapeCasts_S128_S1x128
abbrev row256 (b : Vec Ideal S256 .f32) : Arr 1 256 := shapeCast S1x256 b shapeCasts_S256_S1x256
abbrev row2 (b : Vec Ideal S2 .f32) : Arr 1 2 := shapeCast S1x2 b shapeCasts_S2_S1x2

/-- A TILE'S NODE FEATURES: the node network on the tile's rows. -/
theorem nodeFeatures_eq (x0 : Vec Ideal S1024x4 .f32) (w0 : Vec Ideal S4x128 .f32) (b0 : Vec Ideal S128 .f32)
    (w1 : Vec Ideal S128x128 .f32) (b1 : Vec Ideal S128 .f32) (w2 : Vec Ideal S128x128 .f32) (b2 : Vec Ideal S128 .f32) :
    k0_pay4 (F := Ideal) x0 w0 b0 w1 b1 w2 b2 = mlp x0 w0 (row128 b0) w1 (row128 b1) w2 (row128 b2) := by
  have hm1 : ∀ (l : FVec Ideal S1024x4 .f32) (w : FVec Ideal S4x128 .f32),
      matmul dot_S1024x4_S4x128_S1024x128_1_0_0_1_n_n none (truncf .bf16 l bitsLt_bf16_f32) (truncf .bf16 w bitsLt_bf16_f32)
        (constant S1024x128 .f32 0x00000000#32) = projArr l w :=
    fun l w => matmul_narrowed_eq none l w _ _
  have hm2 : ∀ (l : FVec Ideal S1024x128 .f32) (w : FVec Ideal S128x128 .f32),
      matmul dot_S1024x128_S128x128_S1024x128_1_0_0_1_n_n none (truncf .bf16 l bitsLt_bf16_f32) (truncf .bf16 w bitsLt_bf16_f32)
        (constant S1024x128 .f32 0x00000000#32) = projArr l w :=
    fun l w => matmul_narrowed_eq none l w _ _
  have hr : ∀ (y : FVec Ideal S1024x128 .f32) (b : Vec Ideal S128 .f32),
      maximumf (addf y (broadcastTo S1024x128 (shapeCast S1x128 b shapeCasts_S128_S1x128) broadcasts_S1x128_S1024x128))
        (broadcast S1024x128 (Scalar.ofBits .f32 0x00000000#32)) = reluArr y (row128 b) 0 :=
    fun y b => (rowRelu_eq y _ _ _).trans (by rw [zero_word])
  have hb : ∀ (y : FVec Ideal S1024x128 .f32) (b : Vec Ideal S128 .f32),
      addf y (broadcastTo S1024x128 (shapeCast S1x128 b shapeCasts_S128_S1x128) broadcasts_S1x128_S1024x128)
        = biasArr y (row128 b) :=
    fun y b => rowBias_eq y _ _
  unfold k0_pay4 mlp
  dsimp only
  rw [hm1, hr, hm2, hr, hm2, hb]

/-- THE HEAD of an accumulator: the head network on its rows. -/
theorem head_eq (acc : Vec Ideal S4096x128 .f32) (w0 : Vec Ideal S128x256 .f32) (b0 : Vec Ideal S256 .f32)
    (w1 : Vec Ideal S256x256 .f32) (b1 : Vec Ideal S256 .f32) (w2 : Vec Ideal S256x2 .f32) (b2 : Vec Ideal S2 .f32) :
    k0_pay2 (F := Ideal) acc w0 b0 w1 b1 w2 b2 = mlp acc w0 (row256 b0) w1 (row256 b1) w2 (row2 b2) := by
  have hm1 : ∀ (l : FVec Ideal S4096x128 .f32) (w : FVec Ideal S128x256 .f32),
      matmul dot_S4096x128_S128x256_S4096x256_1_0_0_1_n_n none (truncf .bf16 l bitsLt_bf16_f32) (truncf .bf16 w bitsLt_bf16_f32)
        (constant S4096x256 .f32 0x00000000#32) = projArr l w :=
    fun l w => matmul_narrowed_eq none l w _ _
  have hm2 : ∀ (l : FVec Ideal S4096x256 .f32) (w : FVec Ideal S256x256 .f32),
      matmul dot_S4096x256_S256x256_S4096x256_1_0_0_1_n_n none (truncf .bf16 l bitsLt_bf16_f32) (truncf .bf16 w bitsLt_bf16_f32)
        (constant S4096x256 .f32 0x00000000#32) = projArr l w :=
    fun l w => matmul_narrowed_eq none l w _ _
  have hm3 : ∀ (l : FVec Ideal S4096x256 .f32) (w : FVec Ideal S256x2 .f32),
      matmul dot_S4096x256_S256x2_S4096x2_1_0_0_1_n_n none (truncf .bf16 l bitsLt_bf16_f32) (truncf .bf16 w bitsLt_bf16_f32)
        (constant S4096x2 .f32 0x00000000#32) = projArr l w :=
    fun l w => matmul_narrowed_eq none l w _ _
  have hr : ∀ (y : FVec Ideal S4096x256 .f32) (b : Vec Ideal S256 .f32),
      maximumf (addf y (broadcastTo S4096x256 (shapeCast S1x256 b shapeCasts_S256_S1x256) broadcasts_S1x256_S4096x256))
        (broadcast S4096x256 (Scalar.ofBits .f32 0x00000000#32)) = reluArr y (row256 b) 0 :=
    fun y b => (rowRelu_eq y _ _ _).trans (by rw [zero_word])
  have hb : ∀ (y : FVec Ideal S4096x2 .f32) (b : Vec Ideal S2 .f32),
      addf y (broadcastTo S4096x2 (shapeCast S1x2 b shapeCasts_S2_S1x2) broadcasts_S1x2_S4096x2) = biasArr y (row2 b) :=
    fun y b => rowBias_eq y _ _
  unfold k0_pay2 mlp
  dsimp only
  rw [hm1, hr, hm2, hr, hm3, hb]

/-- An equality test of two words, widened and read as a float: `1` where they are equal, `0` where not. -/
theorem indicator_word (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  unfold IntOp.cmpi
  by_cases h : x = y
  · have e : (x == y) = true := by simpa using h
    have e1 : ((BitVec.ofBool true).setWidth 32).toInt = 1 := by decide
    rw [if_pos h, e, e1]
    simp
  · have e : (x == y) = false := by simpa using h
    have e0 : ((BitVec.ofBool false).setWidth 32).toInt = 0 := by decide
    rw [if_neg h, e, e0]
    simp

/-- THE GRAPH INDICATOR of a tile at `(g, r)`. -/
theorem indicator_apply (ids : Vec Ideal S1024 .i32) (g : Fin 4096) (r : Fin 1024) :
    k0_pay5 (F := Ideal) ids (ix2 g r) = if BitVec.ofNat 32 g.val = ids (ix1 r) then 1 else 0 := by
  unfold k0_pay5
  dsimp only
  rw [sitofp_apply, extui_apply]
  show FloatOps.sitofp (F := Ideal) .f32 ((IntOp.cmpi .eq (iota .tc S4096x1024 32 [0] iota_S4096x1024_d0_w32 (ix2 g r))
    (broadcastTo S4096x1024 (shapeCast S1x1024 ids shapeCasts_S1024_S1x1024) broadcasts_S1x1024_S4096x1024 (ix2 g r))).setWidth 32) = _
  rw [iota_single_apply, broadcastTo_row_apply, rowOfVec_apply, indicator_word]

/-- ONE ACCUMULATE STEP at `(g, c)`. -/
theorem accumulate_apply (h : FVec Ideal S1024x128 .f32) (oh : FVec Ideal S4096x1024 .f32) (acc : Vec Ideal S4096x128 .f32)
    (g : Fin 4096) (c : Fin 128) :
    k0_pay1 (F := Ideal) h oh acc (ix2 g c) = acc (ix2 g c) + ∑ r : Fin 1024, oh (ix2 g r) * h (ix2 r c) := by
  have hm : matmul dot_S4096x1024_S1024x128_S4096x128_1_0_0_1_n_n none (truncf .bf16 oh bitsLt_bf16_f32) (truncf .bf16 h bitsLt_bf16_f32)
      (constant S4096x128 .f32 0x00000000#32) = projArr oh h := matmul_narrowed_eq none oh h _ _
  unfold k0_pay1
  rw [shapeCast_self, addf_apply, hm]
  rfl

/-- ONE ROW'S TERM of a tile's pooled sum at `(g, c)`: the row's feature in column `c` if the row's graph id, read
    signed, is `g`, and zero otherwise. -/
theorem tile_term (ids : Vec Ideal S1024 .i32) (x0 : Vec Ideal S1024x4 .f32) (w0 : Vec Ideal S4x128 .f32)
    (b0 : Vec Ideal S128 .f32) (w1 : Vec Ideal S128x128 .f32) (b1 : Vec Ideal S128 .f32) (w2 : Vec Ideal S128x128 .f32)
    (b2 : Vec Ideal S128 .f32) (g : Fin 4096) (r : Fin 1024) (c : Fin 128) :
    k0_pay5 (F := Ideal) ids (ix2 g r) * k0_pay4 (F := Ideal) x0 w0 b0 w1 b1 w2 b2 (ix2 r c)
      = if (ids (ix1 r)).toInt = (g.val : Int) then mlp x0 w0 (row128 b0) w1 (row128 b1) w2 (row128 b2) (ix2 r c) else 0 := by
  have hg : g.val < 2147483648 := by have := g.isLt; omega
  rw [indicator_apply, nodeFeatures_eq, Cert.Tiles.indicator_mul]
  by_cases h : (ids (ix1 r)).toInt = (g.val : Int)
  · rw [if_pos h, if_pos ((names_graph_iff hg _).mpr h)]
  · rw [if_neg h, if_neg (fun e => h ((names_graph_iff hg _).mp e))]

/-- THE CLEARED BLOCK is zero everywhere. -/
theorem cleared_apply (i : S4096x128.Idx) : k0_pay3 (F := Ideal) i = 0 := by
  unfold k0_pay3
  rw [shapeCast_self, broadcast_apply, zero_word]

end Cert.KernelIdeal.BodyValue

end
-- ==== Proof.BlockReads.lean ====
/-
  What the input windows stage at a grid point.

  Point `t` stages rows `1024 t … 1024 t + 1023` of the node inputs and of the graph ids; every weight and bias
  window stages its whole array at every point.
-/
import proofs.«409733_j88502096101647_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Row `r` of tile `t` is a row of the arrays. -/
theorem tile_row (t : Fin cfg0.N) (r : Fin 1024) : t.val * 1024 + r.val < 524288 := by
  have hN : cfg0.N = 512 := N_0
  have := t.isLt
  have := r.isLt
  omega

/-- The node-input block at point `t` reads rows `1024 t + r` of the node inputs. -/
theorem xblk_apply (c : Dev nD) (t : Fin cfg0.N) (r : Fin 1024) (k : Fin 4) :
    (iblk m c 0 t : Vec F S1024x4 .f32) (ix2 r k)
      = m ((c : Thread nD τ).loc main_arg0) (ix2 (⟨t.val * 1024 + r.val, tile_row t r⟩ : Fin 524288) k) := by
  have hi : ∀ t : Fin cfg0.N, win0_0.index t 0 = t.val ∧ win0_0.index t 1 = 0 := (by decide +kernel : ∀ t : Fin grid0.N, _)
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = t.val * 1024 + r.val; rw [(hi t).1]; omega
  | ⟨1, _⟩ => show win0_0.index t 1 * 4 + 1 * k.val = k.val; rw [(hi t).2]; omega

/-- The graph-id block at point `t` reads entries `1024 t + r` of the graph ids. -/
theorem idblk_apply (c : Dev nD) (t : Fin cfg0.N) (r : Fin 1024) :
    (iblk m c 1 t : Vec F S1024 .i32) (ix1 r)
      = m ((c : Thread nD τ).loc main_arg2) (ix1 (⟨t.val * 1024 + r.val, tile_row t r⟩ : Fin 524288)) := by
  have hi : ∀ t : Fin cfg0.N, win0_1.index t 0 = t.val := (by decide +kernel : ∀ t : Fin grid0.N, _)
  unfold iblk
  rw [View.read_apply]
  show m ((c : Thread nD τ).loc main_arg2) _ = m ((c : Thread nD τ).loc main_arg2) _
  congr 1
  funext a
  apply Fin.ext
  match a with
  | ⟨0, _⟩ => show win0_1.index t 0 * 1024 + 1 * r.val = t.val * 1024 + r.val; rw [hi t]; omega

/-- Window 2's block is its whole array at every point. -/
theorem blk2_eq (c : Dev nD) (t : Fin cfg0.N) :
    (iblk m c 2 t : Vec F S4x128 .f32) = m ((c : Thread nD τ).loc main_arg3) := by
  have hi : ∀ t : Fin cfg0.N, win0_2.index t 0 = 0 ∧ win0_2.index t 1 = 0 := (by decide +kernel : ∀ t : Fin grid0.N, _)
  funext j
  unfold iblk
  rw [View.read_apply]
  show m ((c : Thread nD τ).loc main_arg3) _ = m ((c : Thread nD τ).loc main_arg3) j
  congr 1
  funext a
  apply Fin.ext
  match a with
  | ⟨0, _⟩ => show win0_2.index t 0 * 4 + 1 * (j 0).val = (j 0).val; rw [(hi t).1]; omega
  | ⟨1, _⟩ => show win0_2.index t 1 * 128 + 1 * (j 1).val = (j 1).val; rw [(hi t).2]; omega

/-- Window 3's block is its whole array at every point. -/
theorem blk3_eq (c : Dev nD) (t : Fin cfg0.N) :
    (iblk m c 3 t : Vec F S128 .f32) = m ((c : Thread nD τ).loc main_arg4) := by
  have hi : ∀ t : Fin cfg0.N, win0_3.index t 0 = 0 := (by decide +kernel : ∀ t : Fin grid0.N, _)
  funext j
  unfold iblk
  rw [View.read_apply]
  show m ((c : Thread nD τ).loc main_arg4) _ = m ((c : Thread nD τ).loc main_arg4) j
  congr 1
  funext a
  apply Fin.ext
  match a with
  | ⟨0, _⟩ => show win0_3.index t 0 * 128 + 1 * (j 0).val = (j 0).val; rw [hi t]; omega

/-- Window 4's block is its whole array at every point. -/
theorem blk4_eq (c : Dev nD) (t : Fin cfg0.N) :
    (iblk m c 4 t : Vec F S128x128 .f32) = m ((c : Thread nD τ).loc main_arg5) := by
  have hi : ∀ t : Fin cfg0.N, win0_4.index t 0 = 0 ∧ win0_4.index t 1 = 0 := (by decide +kernel : ∀ t : Fin grid0.N, _)
  funext j
  unfold iblk
  rw [View.read_apply]
  show m ((c : Thread nD τ).loc main_arg5) _ = m ((c : Thread nD τ).loc main_arg5) j
  congr 1
  funext a
  apply Fin.ext
  match a with
  | ⟨0, _⟩ => show win0_4.index t 0 * 128 + 1 * (j 0).val = (j 0).val; rw [(hi t).1]; omega
  | ⟨1, _⟩ => show win0_4.index t 1 * 128 + 1 * (j 1).val = (j 1).val; rw [(hi t).2]; omega

/-- Window 5's block is its whole array at every point. -/
theorem blk5_eq (c : Dev nD) (t : Fin cfg0.N) :
    (iblk m c 5 t : Vec F S128 .f32) = m ((c : Thread nD τ).loc main_arg6) := by
  have hi : ∀ t : Fin cfg0.N, win0_5.index t 0 = 0 := (by decide +kernel : ∀ t : Fin grid0.N, _)
  funext j
  unfold iblk
  rw [View.read_apply]
  show m ((c : Thread nD τ).loc main_arg6) _ = m ((c : Thread nD τ).loc main_arg6) j
  congr 1
  funext a
  apply Fin.ext
  match a with
  | ⟨0, _⟩ => show win0_5.index t 0 * 128 + 1 * (j 0).val = (j 0).val; rw [hi t]; omega

/-- Window 6's block is its whole array at every point. -/
theorem blk6_eq (c : Dev nD) (t : Fin cfg0.N) :
    (iblk m c 6 t : Vec F S128x128 .f32) = m ((c : Thread nD τ).loc main_arg7) := by
  have hi : ∀ t : Fin cfg0.N, win0_6.index t 0 = 0 ∧ win0_6.index t 1 = 0 := (by decide +kernel : ∀ t : Fin grid0.N, _)
  funext j
  unfold iblk
  rw [View.read_apply]
  show m ((c : Thread nD τ).loc main_arg7) _ = m ((c : Thread nD τ).loc main_arg7) j
  congr 1
  funext a
  apply Fin.ext
  match a with
  | ⟨0, _⟩ => show win0_6.index t 0 * 128 + 1 * (j 0).val = (j 0).val; rw [(hi t).1]; omega
  | ⟨1, _⟩ => show win0_6.index t 1 * 128 + 1 * (j 1).val = (j 1).val; rw [(hi t).2]; omega

/-- Window 7's block is its whole array at every point. -/
theorem blk7_eq (c : Dev nD) (t : Fin cfg0.N) :
    (iblk m c 7 t : Vec F S128 .f32) = m ((c : Thread nD τ).loc main_arg8) := by
  have hi : ∀ t : Fin cfg0.N, win0_7.index t 0 = 0 := (by decide +kernel : ∀ t : Fin grid0.N, _)
  funext j
  unfold iblk
  rw [View.read_apply]
  show m ((c : Thread nD τ).loc main_arg8) _ = m ((c : Thread nD τ).loc main_arg8) j
  congr 1
  funext a
  apply Fin.ext
  match a with
  | ⟨0, _⟩ => show win0_7.index t 0 * 128 + 1 * (j 0).val = (j 0).val; rw [hi t]; omega

/-- Window 8's block is its whole array at every point. -/
theorem blk8_eq (c : Dev nD) (t : Fin cfg0.N) :
    (iblk m c 8 t : Vec F S128x256 .f32) = m ((c : Thread nD τ).loc main_arg9) := by
  have hi : ∀ t : Fin cfg0.N, win0_8.index t 0 = 0 ∧ win0_8.index t 1 = 0 := (by decide +kernel : ∀ t : Fin grid0.N, _)
  funext j
  unfold iblk
  rw [View.read_apply]
  show m ((c : Thread nD τ).loc main_arg9) _ = m ((c : Thread nD τ).loc main_arg9) j
  congr 1
  funext a
  apply Fin.ext
  match a with
  | ⟨0, _⟩ => show win0_8.index t 0 * 128 + 1 * (j 0).val = (j 0).val; rw [(hi t).1]; omega
  | ⟨1, _⟩ => show win0_8.index t 1 * 256 + 1 * (j 1).val = (j 1).val; rw [(hi t).2]; omega

/-- Window 9's block is its whole array at every point. -/
theorem blk9_eq (c : Dev nD) (t : Fin cfg0.N) :
    (iblk m c 9 t : Vec F S256 .f32) = m ((c : Thread nD τ).loc main_arg10) := by
  have hi : ∀ t : Fin cfg0.N, win0_9.index t 0 = 0 := (by decide +kernel : ∀ t : Fin grid0.N, _)
  funext j
  unfold iblk
  rw [View.read_apply]
  show m ((c : Thread nD τ).loc main_arg10) _ = m ((c : Thread nD τ).loc main_arg10) j
  congr 1
  funext a
  apply Fin.ext
  match a with
  | ⟨0, _⟩ => show win0_9.index t 0 * 256 + 1 * (j 0).val = (j 0).val; rw [hi t]; omega

/-- Window 10's block is its whole array at every point. -/
theorem blk10_eq (c : Dev nD) (t : Fin cfg0.N) :
    (iblk m c 10 t : Vec F S256x256 .f32) = m ((c : Thread nD τ).loc main_arg11) := by
  have hi : ∀ t : Fin cfg0.N, win0_10.index t 0 = 0 ∧ win0_10.index t 1 = 0 := (by decide +kernel : ∀ t : Fin grid0.N, _)
  funext j
  unfold iblk
  rw [View.read_apply]
  show m ((c : Thread nD τ).loc main_arg11) _ = m ((c : Thread nD τ).loc main_arg11) j
  congr 1
  funext a
  apply Fin.ext
  match a with
  | ⟨0, _⟩ => show win0_10.index t 0 * 256 + 1 * (j 0).val = (j 0).val; rw [(hi t).1]; omega
  | ⟨1, _⟩ => show win0_10.index t 1 * 256 + 1 * (j 1).val = (j 1).val; rw [(hi t).2]; omega

/-- Window 11's block is its whole array at every point. -/
theorem blk11_eq (c : Dev nD) (t : Fin cfg0.N) :
    (iblk m c 11 t : Vec F S256 .f32) = m ((c : Thread nD τ).loc main_arg12) := by
  have hi : ∀ t : Fin cfg0.N, win0_11.index t 0 = 0 := (by decide +kernel : ∀ t : Fin grid0.N, _)
  funext j
  unfold iblk
  rw [View.read_apply]
  show m ((c : Thread nD τ).loc main_arg12) _ = m ((c : Thread nD τ).loc main_arg12) j
  congr 1
  funext a
  apply Fin.ext
  match a with
  | ⟨0, _⟩ => show win0_11.index t 0 * 256 + 1 * (j 0).val = (j 0).val; rw [hi t]; omega

/-- Window 12's block is its whole array at every point. -/
theorem blk12_eq (c : Dev nD) (t : Fin cfg0.N) :
    (iblk m c 12 t : Vec F S256x2 .f32) = m ((c : Thread nD τ).loc main_arg13) := by
  have hi : ∀ t : Fin cfg0.N, win0_12.index t 0 = 0 ∧ win0_12.index t 1 = 0 := (by decide +kernel : ∀ t : Fin grid0.N, _)
  funext j
  unfold iblk
  rw [View.read_apply]
  show m ((c : Thread nD τ).loc main_arg13) _ = m ((c : Thread nD τ).loc main_arg13) j
  congr 1
  funext a
  apply Fin.ext
  match a with
  | ⟨0, _⟩ => show win0_12.index t 0 * 256 + 1 * (j 0).val = (j 0).val; rw [(hi t).1]; omega
  | ⟨1, _⟩ => show win0_12.index t 1 * 2 + 1 * (j 1).val = (j 1).val; rw [(hi t).2]; omega

/-- Window 13's block is its whole array at every point. -/
theorem blk13_eq (c : Dev nD) (t : Fin cfg0.N) :
    (iblk m c 13 t : Vec F S2 .f32) = m ((c : Thread nD τ).loc main_arg14) := by
  have hi : ∀ t : Fin cfg0.N, win0_13.index t 0 = 0 := (by decide +kernel : ∀ t : Fin grid0.N, _)
  funext j
  unfold iblk
  rw [View.read_apply]
  show m ((c : Thread nD τ).loc main_arg14) _ = m ((c : Thread nD τ).loc main_arg14) j
  congr 1
  funext a
  apply Fin.ext
  match a with
  | ⟨0, _⟩ => show win0_13.index t 0 * 2 + 1 * (j 0).val = (j 0).val; rw [hi t]; omega

end Cert.KernelIdeal.Blocks

end
-- ==== Proof.BodyPieces.lean ====
/-
  What one run of the kernel's body leaves behind, as values.

  The body runs in three ways: at the first grid point it clears the pooling accumulator before adding; at the points
  between it only adds; at the last point it adds and then computes the head from the finished accumulator. In every
  case the accumulator ends at its contents before the point (the cleared block at the first point) plus the tile's
  pooled rows: one covering store, whose value is the accumulate step of the tile's node features, the tile's graph
  indicator and what the accumulator held. At the last point the output block is one covering store of the head of
  that new accumulator: the body reads the accumulator back after storing it.
-/
import proofs.«409733_j88502096101647_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- One accumulate step: the tile's node features from its block of `x` and the node network's weights, the tile's
    graph indicator from its block of graph ids, added into `acc`. -/
abbrev step (x0 : Vec F S1024x4 .f32) (x1 : Vec F S1024 .i32) (x2 : Vec F S4x128 .f32) (x3 : Vec F S128 .f32)
    (x4 : Vec F S128x128 .f32) (x5 : Vec F S128 .f32) (x6 : Vec F S128x128 .f32) (x7 : Vec F S128 .f32)
    (acc : Vec F S4096x128 .f32) : Vec F S4096x128 .f32 :=
  k0_pay1 (k0_pay4 x0 x2 x3 x4 x5 x6 x7) (k0_pay5 x1) acc

/-- Between the first and the last point the accumulator ends at one step over what it held. -/
theorem scratch_mid (c : Dev nD) (i : grid0.Coords) (arg1 : Memref sig .tc .vmem S1024x4 .f32) (harg1 : arg1.IsWhole) (arg2 : Memref sig .tc .vmem S1024 .i32) (harg2 : arg2.IsWhole) (arg3 : Memref sig .tc .vmem S4x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S2 .f32) (harg14 : arg14.IsWhole) (arg15 : Memref sig .tc .vmem S4096x2 .f32) (harg15 : arg15.IsWhole) (arg16 : Memref sig .tc .vmem S4096x128 .f32) (harg16 : arg16.IsWhole) (hc0 : ¬cond0_0 i) (hc1 : ¬cond0_1 i)
    (x0 : Vec F S1024x4 .f32) (x1 : Vec F S1024 .i32) (x2 : Vec F S4x128 .f32) (x3 : Vec F S128 .f32) (x4 : Vec F S128x128 .f32) (x5 : Vec F S128 .f32) (x6 : Vec F S128x128 .f32) (x7 : Vec F S128 .f32) (x8 : Vec F S128x256 .f32) (x9 : Vec F S256 .f32) (x10 : Vec F S256x256 .f32) (x11 : Vec F S256 .f32) (x12 : Vec F S256x2 .f32) (x13 : Vec F S2 .f32) (xs0 : Vec F S4096x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = step x0 x1 x2 x3 x4 x5 x6 x7 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S1024x4) hz2, View.ld_unit_zero (S := S1024) hz1, View.ld_unit_zero (S := S4x128) hz2, View.ld_unit_zero (S := S128) hz1,
    View.ld_unit_zero (S := S128x128) hz2, View.ld_unit_zero (S := S128x256) hz2, View.ld_unit_zero (S := S256) hz1, View.ld_unit_zero (S := S256x256) hz2,
    View.ld_unit_zero (S := S256x2) hz2, View.ld_unit_zero (S := S2) hz1, View.ld_unit_zero (S := S4096x2) hz2, View.ld_unit_zero (S := S4096x128) hz2]

/-- At the last point the accumulator ends at one step over what it held. -/
theorem scratch_last (c : Dev nD) (i : grid0.Coords) (arg1 : Memref sig .tc .vmem S1024x4 .f32) (harg1 : arg1.IsWhole) (arg2 : Memref sig .tc .vmem S1024 .i32) (harg2 : arg2.IsWhole) (arg3 : Memref sig .tc .vmem S4x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S2 .f32) (harg14 : arg14.IsWhole) (arg15 : Memref sig .tc .vmem S4096x2 .f32) (harg15 : arg15.IsWhole) (arg16 : Memref sig .tc .vmem S4096x128 .f32) (harg16 : arg16.IsWhole) (hc0 : ¬cond0_0 i) (hc1 : cond0_1 i)
    (x0 : Vec F S1024x4 .f32) (x1 : Vec F S1024 .i32) (x2 : Vec F S4x128 .f32) (x3 : Vec F S128 .f32) (x4 : Vec F S128x128 .f32) (x5 : Vec F S128 .f32) (x6 : Vec F S128x128 .f32) (x7 : Vec F S128 .f32) (x8 : Vec F S128x256 .f32) (x9 : Vec F S256 .f32) (x10 : Vec F S256x256 .f32) (x11 : Vec F S256 .f32) (x12 : Vec F S256x2 .f32) (x13 : Vec F S2 .f32) (xs0 : Vec F S4096x128 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = step x0 x1 x2 x3 x4 x5 x6 x7 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S1024x4) hz2, View.ld_unit_zero (S := S1024) hz1, View.ld_unit_zero (S := S4x128) hz2, View.ld_unit_zero (S := S128) hz1,
    View.ld_unit_zero (S := S128x128) hz2, View.ld_unit_zero (S := S128x256) hz2, View.ld_unit_zero (S := S256) hz1, View.ld_unit_zero (S := S256x256) hz2,
    View.ld_unit_zero (S := S256x2) hz2, View.ld_unit_zero (S := S2) hz1, View.ld_unit_zero (S := S4096x2) hz2, View.ld_unit_zero (S := S4096x128) hz2]

/-- At the last point the output block ends at the head of the new accumulator. -/
theorem out_last (c : Dev nD) (i : grid0.Coords) (arg1 : Memref sig .tc .vmem S1024x4 .f32) (harg1 : arg1.IsWhole) (arg2 : Memref sig .tc .vmem S1024 .i32) (harg2 : arg2.IsWhole) (arg3 : Memref sig .tc .vmem S4x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S2 .f32) (harg14 : arg14.IsWhole) (arg15 : Memref sig .tc .vmem S4096x2 .f32) (harg15 : arg15.IsWhole) (arg16 : Memref sig .tc .vmem S4096x128 .f32) (harg16 : arg16.IsWhole) (hc0 : ¬cond0_0 i) (hc1 : cond0_1 i)
    (x0 : Vec F S1024x4 .f32) (x1 : Vec F S1024 .i32) (x2 : Vec F S4x128 .f32) (x3 : Vec F S128 .f32) (x4 : Vec F S128x128 .f32) (x5 : Vec F S128 .f32) (x6 : Vec F S128x128 .f32) (x7 : Vec F S128 .f32) (x8 : Vec F S128x256 .f32) (x9 : Vec F S256 .f32) (x10 : Vec F S256x256 .f32) (x11 : Vec F S256 .f32) (x12 : Vec F S256x2 .f32) (x13 : Vec F S2 .f32) (xs0 : Vec F S4096x128 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = k0_pay2 (step x0 x1 x2 x3 x4 x5 x6 x7 xs0) x8 x9 x10 x11 x12 x13 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S1024x4) hz2, View.ld_unit_zero (S := S1024) hz1, View.ld_unit_zero (S := S4x128) hz2, View.ld_unit_zero (S := S128) hz1,
    View.ld_unit_zero (S := S128x128) hz2, View.ld_unit_zero (S := S128x256) hz2, View.ld_unit_zero (S := S256) hz1, View.ld_unit_zero (S := S256x256) hz2,
    View.ld_unit_zero (S := S256x2) hz2, View.ld_unit_zero (S := S2) hz1, View.ld_unit_zero (S := S4096x2) hz2, View.ld_unit_zero (S := S4096x128) hz2, View.readCov_unit_zero (S := S4096x128) _ hz2]

/-- At the first point the accumulator ends at one step over the cleared block. -/
theorem scratch_first (c : Dev nD) (i : grid0.Coords) (arg1 : Memref sig .tc .vmem S1024x4 .f32) (harg1 : arg1.IsWhole) (arg2 : Memref sig .tc .vmem S1024 .i32) (harg2 : arg2.IsWhole) (arg3 : Memref sig .tc .vmem S4x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S2 .f32) (harg14 : arg14.IsWhole) (arg15 : Memref sig .tc .vmem S4096x2 .f32) (harg15 : arg15.IsWhole) (arg16 : Memref sig .tc .vmem S4096x128 .f32) (harg16 : arg16.IsWhole) (hc0 : cond0_0 i) (hc1 : ¬cond0_1 i)
    (x0 : Vec F S1024x4 .f32) (x1 : Vec F S1024 .i32) (x2 : Vec F S4x128 .f32) (x3 : Vec F S128 .f32) (x4 : Vec F S128x128 .f32) (x5 : Vec F S128 .f32) (x6 : Vec F S128x128 .f32) (x7 : Vec F S128 .f32) (x8 : Vec F S128x256 .f32) (x9 : Vec F S256 .f32) (x10 : Vec F S256x256 .f32) (x11 : Vec F S256 .f32) (x12 : Vec F S256x2 .f32) (x13 : Vec F S2 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 = step x0 x1 x2 x3 x4 x5 x6 x7 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13)]
  unfold kernelRun0_A
  dsimp only
  sl_unfold_words
  rw [View.canon_cons_unit_zero (S := S4096x128) hz2, View.readCov_unit_zero (S := S4096x128) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S1024x4) hz2, View.ld_unit_zero (S := S1024) hz1, View.ld_unit_zero (S := S4x128) hz2, View.ld_unit_zero (S := S128) hz1,
    View.ld_unit_zero (S := S128x128) hz2, View.ld_unit_zero (S := S128x256) hz2, View.ld_unit_zero (S := S256) hz1, View.ld_unit_zero (S := S256x256) hz2,
    View.ld_unit_zero (S := S256x2) hz2, View.ld_unit_zero (S := S2) hz1, View.ld_unit_zero (S := S4096x2) hz2, View.ld_unit_zero (S := S4096x128) hz2]

end Cert.KernelIdeal.Body

end
-- ==== Proof.Accumulate.lean ====
/-
  The pooling accumulator and the output block, point by point.

  After grid point `n` the accumulator holds the steps of tiles `0 … n` applied in order to the cleared block; this is
  read off the three ways the body runs, by induction on the point. The output block after the last point is the head of
  the accumulator after the last point.
-/
import proofs.«409733_j88502096101647_1_alg».proof.Proof.BodyPieces

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]
variable (m : (ℓ : Loc nD τ sig) → Buf (Elt F) ℓ)

/-- The step of the tile at point `t`: its blocks of `x` and of the graph ids, and the node network's weights. -/
abbrev stepAt (c : Dev nD) (t : Fin cfg0.N) (acc : Vec F S4096x128 .f32) : Vec F S4096x128 .f32 :=
  step (iblk m c 0 t) (iblk m c 1 t) (iblk m c 2 t) (iblk m c 3 t) (iblk m c 4 t) (iblk m c 5 t) (iblk m c 6 t) (iblk m c 7 t) acc

/-- The accumulator after point `n`: the tiles' steps in order, from the cleared block. -/
def accAfter (c : Dev nD) : (n : ℕ) → n < cfg0.N → Vec F S4096x128 .f32
  | 0, h => stepAt m c ⟨0, h⟩ k0_pay3
  | n + 1, h => stepAt m c ⟨n + 1, h⟩ (accAfter c n (Nat.lt_of_succ_lt h))

/-- What the run leaves in the accumulator after point `n` is `accAfter`. -/
theorem scratch_eq (c : Dev nD) : ∀ (n : ℕ) (h : n < cfg0.N), (outsAt0 m c n h).2 = accAfter m c n h
  | 0, h => by
    have h0 : (⟨0, h⟩ : Fin cfg0.N).val % 512 = 0 := rfl
    have h1 : ¬(⟨0, h⟩ : Fin cfg0.N).val % 512 = 511 := by dsimp only; omega
    rw [outsAt0_A m c ⟨0, h⟩ h0 h1]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (iblk m c 13 ⟨0, h⟩)
  | n + 1, h => by
    have hN : n + 1 < 512 := lt_of_lt_of_eq h (show cfg0.N = 512 from N_0)
    have h0 : ¬(⟨n + 1, h⟩ : Fin cfg0.N).val % 512 = 0 := by dsimp only; omega
    have ih := scratch_eq c n (Nat.lt_of_succ_lt h)
    by_cases h1 : (⟨n + 1, h⟩ : Fin cfg0.N).val % 512 = 511
    · rw [outsAt0_C m c ⟨n + 1, h⟩ h0 h1]
      dsimp only
      refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) _).trans ?_
      show stepAt m c ⟨n + 1, h⟩ (outsAt0 m c n _).2 = stepAt m c ⟨n + 1, h⟩ (accAfter m c n _)
      rw [ih]
    · rw [outsAt0_B m c ⟨n + 1, h⟩ h0 h1]
      dsimp only
      refine (scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) _).trans ?_
      show stepAt m c ⟨n + 1, h⟩ (outsAt0 m c n _).2 = stepAt m c ⟨n + 1, h⟩ (accAfter m c n _)
      rw [ih]

/-- The last grid point. -/
abbrev tLast : Fin cfg0.N := ⟨511, by rw [show cfg0.N = 512 from N_0]; decide⟩

/-- The head of a finished accumulator, with the head's weights as the last point stages them. -/
abbrev headAt (c : Dev nD) (t : Fin cfg0.N) (acc : Vec F S4096x128 .f32) : Vec F S4096x2 .f32 :=
  k0_pay2 acc (iblk m c 8 t) (iblk m c 9 t) (iblk m c 10 t) (iblk m c 11 t) (iblk m c 12 t) (iblk m c 13 t)

/-- The output block after the last point: the head of the accumulator after the last point. -/
theorem out_eq (c : Dev nD) :
    (outsAt0 m c tLast.val tLast.isLt).1 = headAt m c tLast (accAfter m c 511 tLast.isLt) := by
  have h0 : ¬(tLast : Fin cfg0.N).val % 512 = 0 := by decide
  have h1 : (tLast : Fin cfg0.N).val % 512 = 511 := by decide
  rw [outsAt0_C m c tLast h0 h1]
  dsimp only
  refine (out_last c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) scM0_0 (Memref.isWhole_whole _) _ _ (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) (iblk m c 12 tLast) (iblk m c 13 tLast) _).trans ?_
  show headAt m c tLast (stepAt m c tLast (outsAt0 m c 510 _).2) = headAt m c tLast (stepAt m c tLast (accAfter m c 510 _))
  rw [scratch_eq m c 510]

end Cert.KernelIdeal.Body

end
-- ==== Proof.KernelRun.lean ====
/-
  The kernel's run, read back: where the output array ends.

  The output block is written back once, after the last grid point, and that block is the whole output array. So after
  the run the output array holds what the last point left in the output block: the head of the pooling accumulator
  after the last point. The argument arrays are as launched.
-/
import proofs.«409733_j88502096101647_1_alg».proof.Proof.Accumulate
import proofs.«409733_j88502096101647_1_alg».proof.Proof.Gen.KernelIdeal.Value
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

/-- What the output array ends holding: the head of the accumulator after the last point. -/
abbrev outFinal (c : Dev nD) : Buf (Elt F) ((c : Thread nD τ).loc main_v0) :=
  headAt m c tLast (accAfter m c 511 tLast.isLt)

/-- The one write-back, after the last point, writes it: the block at index `(0, 0)` is the whole array. -/
theorem flushed_eq (c : Dev nD) (t : Fin cfg0.N) (hf : (cfg0.win 14).flush t = true) :
    (dats m 0 c).flushed 14 t = ((cfg0.win 14).blk t).view.read (Elt F) (outFinal m c) := by
  have hN : cfg0.N = 512 := N_0
  have h3 : t.val = 511 := by have := (flush0_14 t).mp hf; have := t.isLt; omega
  obtain rfl : t = tLast := Fin.ext h3
  rw [Cert.KernelIdeal.Value.flushed14, out_eq]
  have hz' : (fun a => win0_14.index tLast a * main_v0.ty.shape.size a) = fun _ => 0 := funext fun a => by fin_cases a <;> decide
  exact (Memref.read_access_unit_zero (Elt F) main_v0 hz' (fun a => by rw [congrFun hz' a]; simp) (outFinal m c)).symm

/-- So the output array ends at `outFinal`: the last point's block covers it. -/
theorem final_out (c : Dev nD) : (dats m 0 c).arrAt 14 cfg0.N = outFinal m c :=
  (dats m 0 c).arrAt_eq_of_cover 14 (outFinal m c) (flushed_eq m c) fun i =>
    ⟨tLast, (flush0_14 tLast).mpr (by decide), by
      show i ∈ ((View.whole main_v0).slice (win0_14.rect tLast)).set
      rw [View.set_slice_whole, Rect.mem_set_unit]
      intro a
      have h0 : (i 0 : Nat) < 4096 := (i 0).isLt
      have h1 : (i 1 : Nat) < 2 := (i 1).isLt
      match a with
      | ⟨0, _⟩ => show win0_14.index tLast 0 * win0_14.size 0 ≤ (i 0 : Nat) ∧ (i 0 : Nat) < win0_14.index tLast 0 * win0_14.size 0 + win0_14.xsize (grid0.coords tLast) 0
                  rw [show win0_14.index tLast 0 * win0_14.size 0 = 0 from by decide +kernel, show win0_14.xsize (grid0.coords tLast) 0 = 4096 from by decide +kernel]; omega
      | ⟨1, _⟩ => show win0_14.index tLast 1 * win0_14.size 1 ≤ (i 1 : Nat) ∧ (i 1 : Nat) < win0_14.index tLast 1 * win0_14.size 1 + win0_14.xsize (grid0.coords tLast) 1
                  rw [show win0_14.index tLast 1 * win0_14.size 1 = 0 from by decide +kernel, show win0_14.xsize (grid0.coords tLast) 1 = 2 from by decide +kernel]; omega⟩

/-- The run: the output array at `outFinal`, the arguments unchanged. -/
theorem run_out : θ_run defs (onTc (τ := τ) (main (F := F))) ⟨m, fun _ => 0, ρ⟩ fun r => ∀ c : Dev nD,
      r.2.mem ((c : Thread nD τ).loc main_v0) = outFinal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_out m c), (h c).2⟩) (Cert.KernelIdeal.Value.run_blocks m ρ)

end Cert.KernelIdeal.Body

end
-- ==== Proof.KernelNet.lean ====
/-
  The kernel computes the network.

  A tile's pooled sum at `(g, c)` runs over the tile's rows; row `r` of tile `t` is node `1024 t + r`, whose term is its
  feature in column `c` if its graph id names `g`. So after point `n` the accumulator's entry `(g, c)` is the sum of
  those terms over the nodes of tiles `0 … n`, an initial segment of the nodes (by induction on the point: one step adds
  one tile's segment); after the last point the segment is all the nodes and the accumulator is the pooled array. The
  head of the pooled array is what the output array ends holding.
-/
import proofs.«409733_j88502096101647_1_alg».proof.Proof.BodyValues
import proofs.«409733_j88502096101647_1_alg».proof.Proof.BlockReads
import proofs.«409733_j88502096101647_1_alg».proof.Proof.KernelRun
import proofs.«409733_j88502096101647_1_alg».proof.Proof.LibTileSums
import proofs.«409733_j88502096101647_1_alg».proof.Proof.PooledNet

set_option maxRecDepth 16384

noncomputable section

open Idealize.ShloMosaic Idealize.ShloMosaic.TcCoe Idealize.SL.Sem Idealize.ShloMosaic.ValueIdx

namespace Cert.KernelIdeal.NetValue

open Cert.KernelIdeal Cert.KernelIdeal.Gen Cert.KernelIdeal.Body Cert.KernelIdeal.BodyValue Cert.KernelIdeal.Blocks
open Cert.Net Cert.Tiles Cert.Lib Cert.Rows

variable (m : (ℓ : Loc nD τ sig) → Buf (Elt Ideal) ℓ) (ρ : Dev nD → PrngReg)

/-- Node `n`'s graph id. -/
abbrev gid (c : Dev nD) (n : Fin 524288) : BitVec 32 := m ((c : Thread nD τ).loc main_arg2) (ix1 n)

/-- Every node's features: the node network on the rows of the node inputs. -/
abbrev feats (c : Dev nD) : Arr 524288 128 :=
  mlp (m ((c : Thread nD τ).loc main_arg0)) (m ((c : Thread nD τ).loc main_arg3)) (row128 (m ((c : Thread nD τ).loc main_arg4))) (m ((c : Thread nD τ).loc main_arg5)) (row128 (m ((c : Thread nD τ).loc main_arg6))) (m ((c : Thread nD τ).loc main_arg7)) (row128 (m ((c : Thread nD τ).loc main_arg8)))

/-- Node `n`'s term in entry `(g, col)` of the pooled array. -/
def contrib (c : Dev nD) (g : Fin 4096) (col : Fin 128) (n : Fin 524288) : EReal :=
  if (gid m c n).toInt = (g.val : Int) then feats m c (ix2 n col) else 0

/-- A tile's pooled sum is the sum of its nodes' terms: the segment of `1024` nodes from `1024 t`. -/
theorem tile_sum (c : Dev nD) (t : Fin cfg0.N) (g : Fin 4096) (col : Fin 128) :
    ∑ r : Fin 1024, k0_pay5 (F := Ideal) (iblk m c 1 t) (ix2 g r)
        * k0_pay4 (F := Ideal) (iblk m c 0 t) (iblk m c 2 t) (iblk m c 3 t) (iblk m c 4 t) (iblk m c 5 t) (iblk m c 6 t) (iblk m c 7 t) (ix2 r col)
      = ∑ r ∈ Finset.range 1024, extendZero (contrib m c g col) (t.val * 1024 + r) := by
  have hN : cfg0.N = 512 := N_0
  have ht : t.val * 1024 + 1024 ≤ 524288 := by have := t.isLt; omega
  rw [sum_tile (contrib m c g col) 1024 t.val ht]
  refine Finset.sum_congr rfl fun r _ => ?_
  refine (tile_term (iblk m c 1 t) (iblk m c 0 t) (iblk m c 2 t) (iblk m c 3 t) (iblk m c 4 t) (iblk m c 5 t) (iblk m c 6 t) (iblk m c 7 t) g r col).trans ?_
  unfold contrib
  rw [idblk_apply m c t r, blk2_eq m c t, blk3_eq m c t, blk4_eq m c t, blk5_eq m c t, blk6_eq m c t, blk7_eq m c t]
  refine if_congr Iff.rfl ?_ rfl
  exact mlp_rows _ _ _ _ _ _ _ _ r (⟨t.val * 1024 + r.val, tile_row t r⟩ : Fin 524288) (fun k => xblk_apply m c t r k) col

/-- After point `n` the accumulator's entry is the sum of the terms of the nodes of tiles `0 … n`. -/
theorem acc_apply (c : Dev nD) (g : Fin 4096) (col : Fin 128) :
    ∀ (n : ℕ) (h : n < cfg0.N),
      accAfter m c n h (ix2 g col) = ∑ j ∈ Finset.range ((n + 1) * 1024), extendZero (contrib m c g col) j
  | 0, h => by
    show stepAt m c ⟨0, h⟩ (k0_pay3 (F := Ideal)) (ix2 g col) = _
    refine (accumulate_apply _ _ _ g col).trans ?_
    rw [cleared_apply, zero_add, tile_sum m c ⟨0, h⟩ g col, sum_tiles_succ _ 1024 0]
    simp only [Nat.zero_mul, Finset.range_zero, Finset.sum_empty, zero_add]
  | n + 1, h => by
    show stepAt m c ⟨n + 1, h⟩ (accAfter m c n (Nat.lt_of_succ_lt h)) (ix2 g col) = _
    refine (accumulate_apply _ _ _ g col).trans ?_
    rw [acc_apply c g col n (Nat.lt_of_succ_lt h), tile_sum m c ⟨n + 1, h⟩ g col, sum_tiles_succ _ 1024 (n + 1)]

/-- After the last point the accumulator is the pooled array. -/
theorem acc_final (c : Dev nD) : accAfter m c 511 tLast.isLt = pool 4096 (gid m c) (feats m c) := by
  funext i
  obtain ⟨g, col, rfl⟩ : ∃ (g : Fin 4096) (col : Fin 128), i = ix2 g col := ⟨i 0, i 1, eq_ix2 i⟩
  rw [acc_apply m c g col 511 tLast.isLt, pool_apply]
  show ∑ j ∈ Finset.range 524288, extendZero (contrib m c g col) j = _
  rw [sum_range_extendZero]
  rfl

/-- What the output array ends holding is the network of the argument arrays. -/
theorem outFinal_eq (c : Dev nD) :
    outFinal m c = net 4096 (m ((c : Thread nD τ).loc main_arg0)) (gid m c) (m ((c : Thread nD τ).loc main_arg3)) (row128 (m ((c : Thread nD τ).loc main_arg4))) (m ((c : Thread nD τ).loc main_arg5)) (row128 (m ((c : Thread nD τ).loc main_arg6))) (m ((c : Thread nD τ).loc main_arg7)) (row128 (m ((c : Thread nD τ).loc main_arg8))) (m ((c : Thread nD τ).loc main_arg9)) (row256 (m ((c : Thread nD τ).loc main_arg10))) (m ((c : Thread nD τ).loc main_arg11)) (row256 (m ((c : Thread nD τ).loc main_arg12))) (m ((c : Thread nD τ).loc main_arg13)) (row2 (m ((c : Thread nD τ).loc main_arg14))) := by
  show k0_pay2 (F := Ideal) (accAfter m c 511 tLast.isLt) (iblk m c 8 tLast) (iblk m c 9 tLast) (iblk m c 10 tLast) (iblk m c 11 tLast) (iblk m c 12 tLast) (iblk m c 13 tLast) = _
  rw [head_eq, acc_final, blk8_eq m c tLast, blk9_eq m c tLast, blk10_eq m c tLast, blk11_eq m c tLast, blk12_eq m c tLast,
    blk13_eq m c tLast]
  rfl

/-- THE KERNEL'S RUN: the output array ends at the network of the argument arrays, which are unchanged. -/
theorem run_net : θ_run defs (onTc (τ := τ) (main (F := Ideal))) ⟨m, fun _ => 0, ρ⟩ fun r => ∀ c : Dev nD,
      r.2.mem ((c : Thread nD τ).loc main_v0) = net 4096 (m ((c : Thread nD τ).loc main_arg0)) (gid m c) (m ((c : Thread nD τ).loc main_arg3)) (row128 (m ((c : Thread nD τ).loc main_arg4))) (m ((c : Thread nD τ).loc main_arg5)) (row128 (m ((c : Thread nD τ).loc main_arg6))) (m ((c : Thread nD τ).loc main_arg7)) (row128 (m ((c : Thread nD τ).loc main_arg8))) (m ((c : Thread nD τ).loc main_arg9)) (row256 (m ((c : Thread nD τ).loc main_arg10))) (m ((c : Thread nD τ).loc main_arg11)) (row256 (m ((c : Thread nD τ).loc main_arg12))) (m ((c : Thread nD τ).loc main_arg13)) (row2 (m ((c : Thread nD τ).loc main_arg14)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (outFinal_eq m c), (h c).2⟩) (run_out m ρ)

end Cert.KernelIdeal.NetValue

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.LibScatterHost.lean ====
import Idealize.ShloMosaic.PureOps.Ideal
import Idealize.ShloMosaic.PureOps.Contract
import Idealize.ShloMosaic.Lib.ValueIdx
import proofs.«409733_j88502096101647_1_alg».proof.Proof.LibScatterRows

/-!
# The host's scatter-add of rows in a program's spelling, read at an index

A program states `out = operand.at[idx].add(updates)` as `Host.scatterAdd` at its dimension numbers. At the ideal
values, for the dimension numbers of a row scatter, the result at `(r, c)` is the operand's entry plus the sum, over
the update rows `n` whose start row is `r`, of `updates (n, c)`. Stated over variable arrays: a use site names its own
arrays as arguments.
-/

noncomputable section

namespace Idealize.ShloMosaic.ScatterRows

open Idealize.ShloMosaic Idealize.ShloMosaic.ValueIdx

variable {R C N : Nat}

/-- THE PROGRAM'S ROW SCATTER-ADD AT AN INDEX. -/
theorem host_scatterAdd_apply (wf : ScatterDims.WF (⟨2, ![R, C]⟩ : Shape) ⟨2, ![N, 1]⟩ ⟨2, ![N, C]⟩ [1] [0] [0] 1) {w : Nat}
    (z : (⟨2, ![R, C]⟩ : Shape).Idx → EReal) (idx : IVec ⟨2, ![N, 1]⟩ w) (upd : (⟨2, ![N, C]⟩ : Shape).Idx → EReal)
    (r : Fin R) (c : Fin C) :
    Host.scatterAdd (F := Ideal) (φ := .f32) (dims2 wf) z idx upd (ix2 r c)
      = z (ix2 r c) + ∑ n : Fin N, if (idx (ix2 n (0 : Fin 1))).toInt = (r.val : Int) then upd (ix2 n c) else 0 :=
  scatterAdd_apply wf z idx upd r c

end Idealize.ShloMosaic.ScatterRows

end
-- ==== Proof.RefIsNet.lean ====
/-
  The reference computes the network.

  The reference's run ends at one composed term of its argument arrays: three dense layers on the node rows, a
  scatter-add of the node features into a zero array of one row per graph, three dense layers on the pooled rows. Each
  host product is the rows against the columns, each bias the vector broadcast to a row and down the rows, and the
  scatter-add of rows into zeros is, at `(g, c)`, the sum of the feature rows whose graph id, read signed, is `g`:
  pooling by graph. So the term is the network of the argument arrays.
-/
import proofs.«409733_j88502096101647_1_alg».proof.ReferenceIdeal
import proofs.«409733_j88502096101647_1_alg».proof.Proof.LibRowOps
import proofs.«409733_j88502096101647_1_alg».proof.Proof.LibScatterHost
import proofs.«409733_j88502096101647_1_alg».proof.Proof.LibRowLayers
import proofs.«409733_j88502096101647_1_alg».proof.Proof.PooledNet
import Idealize.ShloMosaic.PureOps.Ideal.Laws
import Idealize.ShloMosaic.Lib.ValueIdx
import Idealize.ShloMosaic.Lib.Pipeline.Value

noncomputable section

namespace Cert.ReferenceIdeal.IsNet

open Cert.ReferenceIdeal Cert.ReferenceIdeal.Facts₀
open Idealize.ShloMosaic Idealize.ShloMosaic.ValueIdx Cert.Lib Cert.Rows Cert.Net

variable [Cert.ReferenceIdeal.Facts]

theorem cast128 : S128.ShapeCasts S1x128 := by decide
theorem cast256 : S256.ShapeCasts S1x256 := by decide
theorem cast2 : S2.ShapeCasts S1x2 := by decide

/-- The graph ids as the scatter reads them: one start row per node, the node's id. -/
theorem ids_apply (x2 : IVec S524288 32) (n : Fin 524288) :
    broadcastInDim S524288x1 ![0] bcast_S524288_S524288x1_0 x2 (ix2 n (0 : Fin 1)) = x2 (ix1 n) :=
  broadcastInDim_apply ![0] bcast_S524288_S524288x1_0 x2 (ix2 n (0 : Fin 1)) (ix1 n) (fun ax => by
    match ax with
    | ⟨0, _⟩ =>
      show n.val = if (524288 : ℕ) = 1 then 0 else n.val
      split
      · omega
      · rfl)

/-- The scatter-add of the node features into zeros is pooling by graph. -/
theorem scatter_is_pool (x2 : IVec S524288 32) (upd : FVec Ideal S524288x128 .f32) :
    Host.scatterAdd scatter_S4096x128_S524288x1_S524288x128_1_0_0_1
        (broadcastInDim S4096x128 ![] bcast_S_S4096x128 (constant S_ .f32 0x00000000#32))
        (broadcastInDim S524288x1 ![0] bcast_S524288_S524288x1_0 x2) upd
      = pool 4096 (fun n => x2 (ix1 n)) upd := by
  funext i
  obtain ⟨g, c, rfl⟩ : ∃ (g : Fin 4096) (c : Fin 128), i = ix2 g c := ⟨i 0, i 1, eq_ix2 i⟩
  refine (ScatterRows.host_scatterAdd_apply scatter_S4096x128_S524288x1_S524288x128_1_0_0_1_wf _ _ upd g c).trans ?_
  have ez : broadcastInDim S4096x128 ![] bcast_S_S4096x128 (constant (F := Ideal) S_ .f32 0x00000000#32) (ix2 g c) = 0 :=
    (broadcastInDim_apply ![] bcast_S_S4096x128 _ (ix2 g c) ix0 (fun ax => ax.elim0)).trans
      ((constant_apply _ _).trans Ideal.ofBits_zero_f32)
  rw [ez, zero_add, pool_apply]
  refine Finset.sum_congr rfl fun n _ => ?_
  rw [ids_apply]

/-- THE REFERENCE'S TERM IS THE NETWORK of the argument arrays. -/
theorem term_eq (x0 : FVec Ideal S524288x4 .f32) (x2 : IVec S524288 32)
    (x3 : FVec Ideal S4x128 .f32) (x4 : FVec Ideal S128 .f32)
    (x5 : FVec Ideal S128x128 .f32) (x6 : FVec Ideal S128 .f32)
    (x7 : FVec Ideal S128x128 .f32) (x8 : FVec Ideal S128 .f32)
    (x9 : FVec Ideal S128x256 .f32) (x10 : FVec Ideal S256 .f32)
    (x11 : FVec Ideal S256x256 .f32) (x12 : FVec Ideal S256 .f32)
    (x13 : FVec Ideal S256x2 .f32) (x14 : FVec Ideal S2 .f32) :
    (addf (Host.dotGeneral dot_S4096x256_S256x2_S4096x2_1_0_0_1_n_n none (maximumf (addf (Host.dotGeneral dot_S4096x256_S256x256_S4096x256_1_0_0_1_n_n none (maximumf (addf (Host.dotGeneral dot_S4096x128_S128x256_S4096x256_1_0_0_1_n_n none (Host.scatterAdd scatter_S4096x128_S524288x1_S524288x128_1_0_0_1 (broadcastInDim S4096x128 ![] bcast_S_S4096x128 (constant S_ .f32 0x00000000#32)) (broadcastInDim S524288x1 ![0] bcast_S524288_S524288x1_0 x2) (addf (Host.dotGeneral dot_S524288x128_S128x128_S524288x128_1_0_0_1_n_n none (maximumf (addf (Host.dotGeneral dot_S524288x128_S128x128_S524288x128_1_0_0_1_n_n none (maximumf (addf (Host.dotGeneral dot_S524288x4_S4x128_S524288x128_1_0_0_1_n_n none x0 x3) (broadcastInDim S524288x128 ![0, 1] bcast_S1x128_S524288x128_0_1 (broadcastInDim S1x128 ![1] bcast_S128_S1x128_1 x4))) (broadcastInDim S524288x128 ![] bcast_S_S524288x128 (constant S_ .f32 0x00000000#32))) x5) (broadcastInDim S524288x128 ![0, 1] bcast_S1x128_S524288x128_0_1 (broadcastInDim S1x128 ![1] bcast_S128_S1x128_1 x6))) (broadcastInDim S524288x128 ![] bcast_S_S524288x128 (constant S_ .f32 0x00000000#32))) x7) (broadcastInDim S524288x128 ![0, 1] bcast_S1x128_S524288x128_0_1 (broadcastInDim S1x128 ![1] bcast_S128_S1x128_1 x8)))) x9) (broadcastInDim S4096x256 ![0, 1] bcast_S1x256_S4096x256_0_1 (broadcastInDim S1x256 ![1] bcast_S256_S1x256_1 x10))) (broadcastInDim S4096x256 ![] bcast_S_S4096x256 (constant S_ .f32 0x00000000#32))) x11) (broadcastInDim S4096x256 ![0, 1] bcast_S1x256_S4096x256_0_1 (broadcastInDim S1x256 ![1] bcast_S256_S1x256_1 x12))) (broadcastInDim S4096x256 ![] bcast_S_S4096x256 (constant S_ .f32 0x00000000#32))) x13) (broadcastInDim S4096x2 ![0, 1] bcast_S1x2_S4096x2_0_1 (broadcastInDim S1x2 ![1] bcast_S2_S1x2_1 x14)) : FVec Ideal S4096x2 .f32)
      = net 4096 x0 (fun n => x2 (ix1 n)) x3 (shapeCast S1x128 x4 cast128) x5 (shapeCast S1x128 x6 cast128) x7 (shapeCast S1x128 x8 cast128)
          x9 (shapeCast S1x256 x10 cast256) x11 (shapeCast S1x256 x12 cast256) x13 (shapeCast S1x2 x14 cast2) := by
  have hd0 : ∀ (l : FVec Ideal S524288x4 .f32) (w : FVec Ideal S4x128 .f32),
      Host.dotGeneral dot_S524288x4_S4x128_S524288x128_1_0_0_1_n_n none l w = projArr l w := fun l w => host_dot_eq none l w
  have hd1 : ∀ (l : FVec Ideal S524288x128 .f32) (w : FVec Ideal S128x128 .f32),
      Host.dotGeneral dot_S524288x128_S128x128_S524288x128_1_0_0_1_n_n none l w = projArr l w := fun l w => host_dot_eq none l w
  have hd2 : ∀ (l : FVec Ideal S4096x128 .f32) (w : FVec Ideal S128x256 .f32),
      Host.dotGeneral dot_S4096x128_S128x256_S4096x256_1_0_0_1_n_n none l w = projArr l w := fun l w => host_dot_eq none l w
  have hd3 : ∀ (l : FVec Ideal S4096x256 .f32) (w : FVec Ideal S256x256 .f32),
      Host.dotGeneral dot_S4096x256_S256x256_S4096x256_1_0_0_1_n_n none l w = projArr l w := fun l w => host_dot_eq none l w
  have hd4 : ∀ (l : FVec Ideal S4096x256 .f32) (w : FVec Ideal S256x2 .f32),
      Host.dotGeneral dot_S4096x256_S256x2_S4096x2_1_0_0_1_n_n none l w = projArr l w := fun l w => host_dot_eq none l w
  have hr1 : ∀ (A : FVec Ideal S524288x128 .f32) (b : FVec Ideal S128 .f32),
      maximumf (addf A (broadcastInDim S524288x128 ![0, 1] bcast_S1x128_S524288x128_0_1 (broadcastInDim S1x128 ![1] bcast_S128_S1x128_1 b)))
        (broadcastInDim S524288x128 ![] bcast_S_S524288x128 (constant S_ .f32 0x00000000#32))
        = reluArr A (shapeCast S1x128 b cast128) 0 :=
    fun A b => (host_biasRelu_eq A b _ _ _ cast128 _).trans (by rw [Ideal.ofBits_zero_f32])
  have hr2 : ∀ (A : FVec Ideal S4096x256 .f32) (b : FVec Ideal S256 .f32),
      maximumf (addf A (broadcastInDim S4096x256 ![0, 1] bcast_S1x256_S4096x256_0_1 (broadcastInDim S1x256 ![1] bcast_S256_S1x256_1 b)))
        (broadcastInDim S4096x256 ![] bcast_S_S4096x256 (constant S_ .f32 0x00000000#32))
        = reluArr A (shapeCast S1x256 b cast256) 0 :=
    fun A b => (host_biasRelu_eq A b _ _ _ cast256 _).trans (by rw [Ideal.ofBits_zero_f32])
  have hb1 : ∀ (A : FVec Ideal S524288x128 .f32) (b : FVec Ideal S128 .f32),
      addf A (broadcastInDim S524288x128 ![0, 1] bcast_S1x128_S524288x128_0_1 (broadcastInDim S1x128 ![1] bcast_S128_S1x128_1 b))
        = biasArr A (shapeCast S1x128 b cast128) := fun A b => host_bias_eq A b _ _ cast128
  have hb2 : ∀ (A : FVec Ideal S4096x2 .f32) (b : FVec Ideal S2 .f32),
      addf A (broadcastInDim S4096x2 ![0, 1] bcast_S1x2_S4096x2_0_1 (broadcastInDim S1x2 ![1] bcast_S2_S1x2_1 b))
        = biasArr A (shapeCast S1x2 b cast2) := fun A b => host_bias_eq A b _ _ cast2
  unfold net mlp
  rw [hd0, hr1, hd1, hr1, hd1, hb1, scatter_is_pool, hd2, hr2, hd3, hr2, hd4, hb2]

end Cert.ReferenceIdeal.IsNet

end
-- ==== Proof.lean ====
/-
  A graph network's forward pass, fused into one kernel, against its plain statement.

  Both programs take `524288` node rows of `4` inputs, a graph id per node and the weights of two small networks.
  Every node row passes through the node network (two dense layers with a positive part, then an affine layer, to
  `128` features); the features are summed graph by graph into `4096` rows; every pooled row passes through the head
  (the same three kinds of layer, to `2` scores). The edge list is an argument neither program reads.

  The reference pools with a scatter-add of the feature rows into a zero array, addressed by the graph ids read as
  signed words; an id that names no graph contributes nowhere. The kernel walks the nodes in `512` tiles of `1024`
  rows. For a tile it computes the features, builds the `4096 × 1024` indicator whose entry `(g, r)` is `1` when row
  `r`'s graph id is the word of `g`, and adds indicator × features into an accumulator it keeps from tile to tile,
  cleared at the first tile; at the last tile it applies the head to the accumulator and stores the result.

  On the extended reals the two agree entry by entry. An indicator entry times a feature is the feature or zero
  (`1 * x = x`, `0 * x = 0`, also at the infinities), so a tile's product is the sum of the features of the tile's
  nodes in graph `g`; a word below `2 ^ 31` equals an id exactly when the id's signed reading is that number; and
  addition of extended reals is commutative and associative, so the tile sums added in tile order are the one sum over
  all nodes. Narrowing a matrix product's operands to a shorter float format is the identity there, a product into the
  zero accumulator is the plain product, and both programs add the same bias rows and take the same positive parts.
  No step needs the inputs to be finite.
-/
import proofs.«409733_j88502096101647_1_alg».proof.Defs
import proofs.«409733_j88502096101647_1_alg».proof.Proof.Gen.Kernel
import proofs.«409733_j88502096101647_1_alg».proof.Proof.Gen.Kernel.Skeleton
import proofs.«409733_j88502096101647_1_alg».proof.Proof.Gen.Kernel.Launch
import proofs.«409733_j88502096101647_1_alg».proof.Proof.Gen.Kernel.Points
import proofs.«409733_j88502096101647_1_alg».proof.Proof.Gen.Kernel.Frame
import proofs.«409733_j88502096101647_1_alg».proof.Proof.Gen.KernelIdeal
import proofs.«409733_j88502096101647_1_alg».proof.Proof.Gen.KernelIdeal.Skeleton
import proofs.«409733_j88502096101647_1_alg».proof.Proof.Gen.KernelIdeal.Launch
import proofs.«409733_j88502096101647_1_alg».proof.Proof.Gen.KernelIdeal.Points
import proofs.«409733_j88502096101647_1_alg».proof.Proof.Gen.KernelIdeal.Frame
import proofs.«409733_j88502096101647_1_alg».proof.Proof.Gen.ReferenceIdeal
import proofs.«409733_j88502096101647_1_alg».proof.Proof.Gen.Pre_finite_inputs
import proofs.«409733_j88502096101647_1_alg».proof.Proof.Gen.KernelIdeal.Value
import proofs.«409733_j88502096101647_1_alg».proof.Proof.Gen.ReferenceIdeal.Run
import proofs.«409733_j88502096101647_1_alg».proof.Proof.KernelNet
import proofs.«409733_j88502096101647_1_alg».proof.Proof.RefIsNet
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at the network of the argument arrays, and the arguments agree. -/
theorem algebraic : Cert.algebraic_KernelIdeal_ReferenceIdeal := by
  intro m ρ m' ρ' _ hagree
  refine ⟨_, Cert.KernelIdeal.NetValue.run_net m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [a0, a2, a3, a4, a5, a6, a7, a8, a9, a10, a11, a12, a13, a14]
  exact Cert.ReferenceIdeal.IsNet.term_eq _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
